-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S96x64 .f32) (main_arg9 : FVec F S64 .f32) (main_v33 : IVec S_ 1) : IVec S_ 1 :=
  let main_v34 : FVec F S96x64 .f32 := Host.absf main_arg8
  let main_cst_12 : FVec F S_ .f32 := constant S_ .f32 0x7F800000#32
  let main_v35 : FVec F S96x64 .f32 := broadcastInDim S96x64 ![] bcast_S_S96x64 main_cst_12
  let main_v36 : IVec S96x64 1 := cmpf .olt main_v34 main_v35
  let main_c_13 : IVec S_ 1 := constantI S_ 1 1#1
  let main_v37 : IVec S_ 1 := (fun x v => Host.reduce IntOp.andi x v reducesTo_S96x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S96 .f32) (main_arg6 : FVec F S96x96 .f32) (main_arg7 : FVec F S96 .f32) (main_arg8 : FVec F S96x64 .f32) (main_arg9 : FVec F S64 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x96 .f32) (main_arg3 : FVec F S96 .f32) (main_arg4 : FVec F S96x96 .f32) (main_arg5 : FVec F S96 .f32) (main_arg6 : FVec F S96x96 .f32) (main_arg7 : FVec F S96 .f32) (main_arg8 : FVec F S96x64 .f32) (main_arg9 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x96 .f32 := Host.absf main_arg2
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S5000x512 : Shape := ⟨2, ![5000, 512]⟩
abbrev S5000x96 : Shape := ⟨2, ![5000, 96]⟩
abbrev S800000x96 : Shape := ⟨2, ![800000, 96]⟩
abbrev S50000x1 : Shape := ⟨2, ![50000, 1]⟩
abbrev S1x96 : Shape := ⟨2, ![1, 96]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 129
  | .vmem => 20
  | .smem => 0
  | _ => 0

abbrev hbmTy0_0 (i : Nat) : BufTy := match i % 128 with
  | 0 => ⟨S50000x512, .f32⟩
  | 1 => ⟨S2x800000, .i32⟩
  | 2 => ⟨S512x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000, .f32⟩
  | 44 => ⟨S50000x96, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x96, .f32⟩
  | 54 => ⟨S800000x1, .f32⟩
  | 55 => ⟨S800000x96, .f32⟩
  | 56 => ⟨S800000x96, .f32⟩
  | 57 => ⟨S_, .f32⟩
  | 58 => ⟨S50000x96, .f32⟩
  | 59 => ⟨S800000x1, .i32⟩
  | 60 => ⟨S50000x96, .f32⟩
  | 61 => ⟨S50000x1, .f32⟩
  | 62 => ⟨S50000x96, .f32⟩
  | 63 => ⟨S50000x96, .f32⟩
  | 64 => ⟨S50000x96, .f32⟩
  | 65 => ⟨S1x96, .f32⟩
  | 66 => ⟨S50000x96, .f32⟩
  | 67 => ⟨S50000x96, .f32⟩
  | 68 => ⟨S_, .f32⟩
  | 69 => ⟨S50000x96, .f32⟩
  | 70 => ⟨S50000x96, .f32⟩
  | 71 => ⟨S50000x96, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x96, .f32⟩
  | 81 => ⟨S800000x1, .f32⟩
  | 82 => ⟨S800000x96, .f32⟩
  | 83 => ⟨S800000x96, .f32⟩
  | 84 => ⟨S_, .f32⟩
  | 85 => ⟨S50000x96, .f32⟩
  | 86 => ⟨S800000x1, .i32⟩
  | 87 => ⟨S50000x96, .f32⟩
  | 88 => ⟨S50000x1, .f32⟩
  | 89 => ⟨S50000x96, .f32⟩
  | 90 => ⟨S50000x96, .f32⟩
  | 91 => ⟨S50000x96, .f32⟩
  | 92 => ⟨S1x96, .f32⟩
  | 93 => ⟨S50000x96, .f32⟩
  | 94 => ⟨S50000x96, .f32⟩
  | 95 => ⟨S_, .f32⟩
  | 96 => ⟨S50000x96, .f32⟩
  | 97 => ⟨S50000x96, .f32⟩
  | 98 => ⟨S50000x96, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x96, .f32⟩
  | 108 => ⟨S800000x1, .f32⟩
  | 109 => ⟨S800000x96, .f32⟩
  | 110 => ⟨S800000x96, .f32⟩
  | 111 => ⟨S_, .f32⟩
  | 112 => ⟨S50000x96, .f32⟩
  | 113 => ⟨S800000x1, .i32⟩
  | 114 => ⟨S50000x96, .f32⟩
  | 115 => ⟨S50000x1, .f32⟩
  | 116 => ⟨S50000x96, .f32⟩
  | 117 => ⟨S50000x96, .f32⟩
  | 118 => ⟨S50000x96, .f32⟩
  | 119 => ⟨S1x96, .f32⟩
  | 120 => ⟨S50000x96, .f32⟩
  | 121 => ⟨S50000x96, .f32⟩
  | 122 => ⟨S_, .f32⟩
  | 123 => ⟨S50000x96, .f32⟩
  | 124 => ⟨S50000x96, .f32⟩
  | 125 => ⟨S50000x64, .f32⟩
  | 126 => ⟨S1x64, .f32⟩
  | 127 => ⟨S50000x64, .f32⟩
  | _ => ⟨S50000x512, .f32⟩

abbrev hbmTy0_1 (i : Nat) : BufTy := match i % 128 with
  | 0 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S96x64, .f32⟩
  | .local _ .vmem, ⟨18, _⟩ => ⟨S5000x64, .f32⟩
  | .local _ .vmem, ⟨19, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call3_cst : Ref sig .tc := ⟨.hbm, 95, rfl⟩
abbrev main_call3_v0 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call5_cst : Ref sig .tc := ⟨.hbm, 122, rfl⟩
abbrev main_call5_v0 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x96_S512x96_0_0 : ∀ a, (![0, 0] : Fin 2 → Nat) a + S512x96.size a ≤ S512x96.size a
  h_S512x96 : 0 < S512x96.numel
  inb_S5000x96_S5000x96_0_0 : ∀ a, (![0, 0] : Fin 2 → Nat) a + S5000x96.size a ≤ S5000x96.size a
  h_S5000x96 : 0 < S5000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  inb_S96x64_S96x64_0_0 : ∀ a, (![0, 0] : Fin 2 → Nat) a + S96x64.size a ≤ S96x64.size a
  h_S96x64 : 0 < S96x64.numel
  inb_S5000x64_S5000x64_0_0 : ∀ a, (![0, 0] : Fin 2 → Nat) a + S5000x64.size a ≤ S5000x64.size a
  h_S5000x64 : 0 < S5000x64.numel
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x512_S512x96_S5000x96_1_0_0_1_n_n_wf : DotDims.WF S5000x512 S512x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x64.size a ≤ S96x64.size a
  hwx3_1 : ∀ i : grid3.Coords, EltTy.bits .f32 = 32 ∨ (Rect.block (s := S96x64) S96x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x512_S512x96_S5000x96_1_0_0_1_n_n : DotDims S5000x512 S512x96 S5000x96 where
  lhsContracting := [1]
  rhsContracting := [0]
  lhsNonContracting := [0]
  rhsNonContracting := [1]
  lhsBatch := []
  rhsBatch := []
  wf := dot_S5000x512_S512x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S96x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x64 : Shape := ⟨2, ![50000, 64]⟩
abbrev S1x64 : Shape := ⟨2, ![1, 64]⟩

abbrev nBuf : Space → Nat
  | .hbm => 189
  | .vmem => 0
  | .smem => 0
  | _ => 0

abbrev hbmTy0_0 (i : Nat) : BufTy := match i % 128 with
  | 0 => ⟨S50000x512, .f32⟩
  | 1 => ⟨S2x800000, .i32⟩
  | 2 => ⟨S512x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000x96, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x96, .f32⟩
  | 53 => ⟨S800000x1, .f32⟩
  | 54 => ⟨S800000x96, .f32⟩
  | 55 => ⟨S800000x96, .f32⟩
  | 56 => ⟨S_, .f32⟩
  | 57 => ⟨S50000x96, .f32⟩
  | 58 => ⟨S800000x1, .i32⟩
  | 59 => ⟨S50000x96, .f32⟩
  | 60 => ⟨S50000, .f32⟩
  | 61 => ⟨S50000x1, .f32⟩
  | 62 => ⟨S50000x96, .f32⟩
  | 63 => ⟨S50000x96, .f32⟩
  | 64 => ⟨S50000x96, .f32⟩
  | 65 => ⟨S1x96, .f32⟩
  | 66 => ⟨S50000x96, .f32⟩
  | 67 => ⟨S50000x96, .f32⟩
  | 68 => ⟨S_, .f32⟩
  | 69 => ⟨S50000x96, .f32⟩
  | 70 => ⟨S50000x96, .f32⟩
  | 71 => ⟨S50000x96, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x96, .f32⟩
  | 110 => ⟨S800000x1, .f32⟩
  | 111 => ⟨S800000x96, .f32⟩
  | 112 => ⟨S800000x96, .f32⟩
  | 113 => ⟨S_, .f32⟩
  | 114 => ⟨S50000x96, .f32⟩
  | 115 => ⟨S800000x1, .i32⟩
  | 116 => ⟨S50000x96, .f32⟩
  | 117 => ⟨S50000, .f32⟩
  | 118 => ⟨S50000x1, .f32⟩
  | 119 => ⟨S50000x96, .f32⟩
  | 120 => ⟨S50000x96, .f32⟩
  | 121 => ⟨S50000x96, .f32⟩
  | 122 => ⟨S1x96, .f32⟩
  | 123 => ⟨S50000x96, .f32⟩
  | 124 => ⟨S50000x96, .f32⟩
  | 125 => ⟨S_, .f32⟩
  | 126 => ⟨S50000x96, .f32⟩
  | 127 => ⟨S50000x96, .f32⟩
  | _ => ⟨S50000x512, .f32⟩

abbrev hbmTy0_1 (i : Nat) : BufTy := match i % 128 with
  | 0 => ⟨S50000x96, .f32⟩
  | 1 => ⟨S_, .f32⟩
  | 2 => ⟨S800000, .f32⟩
  | 3 => ⟨S_, .f32⟩
  | 4 => ⟨S50000, .f32⟩
  | 5 => ⟨S800000x1, .i32⟩
  | 6 => ⟨S50000, .f32⟩
  | 7 => ⟨S_, .f32⟩
  | 8 => ⟨S50000, .f32⟩
  | 9 => ⟨S50000, .f32⟩
  | 10 => ⟨S50000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .f32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x96, .f32⟩
  | 39 => ⟨S800000x1, .f32⟩
  | 40 => ⟨S800000x96, .f32⟩
  | 41 => ⟨S800000x96, .f32⟩
  | 42 => ⟨S_, .f32⟩
  | 43 => ⟨S50000x96, .f32⟩
  | 44 => ⟨S800000x1, .i32⟩
  | 45 => ⟨S50000x96, .f32⟩
  | 46 => ⟨S50000, .f32⟩
  | 47 => ⟨S50000x1, .f32⟩
  | 48 => ⟨S50000x96, .f32⟩
  | 49 => ⟨S50000x96, .f32⟩
  | 50 => ⟨S50000x96, .f32⟩
  | 51 => ⟨S1x96, .f32⟩
  | 52 => ⟨S50000x96, .f32⟩
  | 53 => ⟨S50000x96, .f32⟩
  | 54 => ⟨S_, .f32⟩
  | 55 => ⟨S50000x96, .f32⟩
  | 56 => ⟨S50000x96, .f32⟩
  | 57 => ⟨S50000x64, .f32⟩
  | 58 => ⟨S1x64, .f32⟩
  | 59 => ⟨S50000x64, .f32⟩
  | 60 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_21 : Ref sig .tc := ⟨.hbm, 139, rfl⟩
abbrev main_v102 : Ref sig .tc := ⟨.hbm, 140, rfl⟩
abbrev main_v103 : Ref sig .tc := ⟨.hbm, 141, rfl⟩
abbrev main_c_22 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev main_v110 : Ref sig .tc := ⟨.hbm, 150, rfl⟩
abbrev main_c_24 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_25 : Ref sig .tc := ⟨.hbm, 158, rfl⟩
abbrev main_v117 : Ref sig .tc := ⟨.hbm, 159, rfl⟩
abbrev main_v118 : Ref sig .tc := ⟨.hbm, 160, rfl⟩
abbrev main_c_26 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_27 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call2_cst : Ref sig .tc := ⟨.hbm, 182, rfl⟩
abbrev main_call2_v0 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x96_S50000x96_1_0_0_1_n_n_wf : DotDims.WF S50000x512 S512x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []

variable [Facts₀]

def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.KBase.lean ====
/-
  The kernel's program, read boundary by boundary: the launch arguments and what the prelude leaves. The prelude is host
  operations on the edge list only: the source and the destination node of each edge (rows 0 and 1 of the list), the in-degree
  of every node plus one (a scatter-add of ones over the destinations, then + 1), dinv = its inverse square root, the edge
  weight norm[e] = dinv[src e] · dinv[dst e] (two gathers, negative indices wrapped by + 50000 first) and the self-loop weight
  dinv · dinv. Each is the reference's stage of the same name in its own first layer, applied to the launch edge list: the
  operations are the same ones in the same order. The reference computes the degree chain again in its second and third layer;
  those copies are the same function of the edge list.
-/
import proofs.«108988_j15307263443205_1_alg».proof.Proof.Gen.KernelIdeal.Frame
import proofs.«108988_j15307263443205_1_alg».proof.Proof.Gen.ReferenceIdeal.Read
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v26 val_main_v40 val_main_v71 val_main_v85 val_main_v116 val_main_v130)

/-! ## The reference's recomputed degree chains

The reference computes the edge weights and the self-loop weights anew in each layer, from the same edge list by the same
operations: as functions of the edge list the later copies are the first. -/

theorem norm_layer2 (e : (⟨Cert.ReferenceIdeal.S2x800000, .i32⟩ : BufTy).Contents (Elt Ideal)) :
    val_main_v71 (F := Ideal) e = val_main_v26 (F := Ideal) e := rfl
theorem self_layer2 (e : (⟨Cert.ReferenceIdeal.S2x800000, .i32⟩ : BufTy).Contents (Elt Ideal)) :
    val_main_v85 (F := Ideal) e = val_main_v40 (F := Ideal) e := rfl
theorem norm_layer3 (e : (⟨Cert.ReferenceIdeal.S2x800000, .i32⟩ : BufTy).Contents (Elt Ideal)) :
    val_main_v116 (F := Ideal) e = val_main_v26 (F := Ideal) e := rfl
theorem self_layer3 (e : (⟨Cert.ReferenceIdeal.S2x800000, .i32⟩ : BufTy).Contents (Elt Ideal)) :
    val_main_v130 (F := Ideal) e = val_main_v40 (F := Ideal) e := rfl

variable (m : (ℓ : Loc nD τ sig) → Buf (Elt Ideal) ℓ) (ρ : Dev nD → PrngReg)

/-! ## The launch arguments -/

abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)
abbrev x8 (c : Dev nD) := m ((c : Thread nD τ).loc main_arg8)
abbrev x9 (c : Dev nD) := m ((c : Thread nD τ).loc main_arg9)

/-! ## The prelude: what the first host stretch leaves -/

/-- The source node of each edge. -/
theorem w1_src (c : Dev nD) : W1 m ρ c (Proc.devRef .tc main_v1) = val_main_v1 (F := Ideal) (x1 m c) := by
  show StableHlo.after hostOps0 (W0 m ρ c) (Proc.devRef .tc main_v1) = _
  after_results_simp
  rfl
/-- The destination node of each edge. -/
theorem w1_dst (c : Dev nD) : W1 m ρ c (Proc.devRef .tc main_v3) = val_main_v3 (F := Ideal) (x1 m c) := by
  show StableHlo.after hostOps0 (W0 m ρ c) (Proc.devRef .tc main_v3) = _
  after_results_simp
  rfl
/-- The edge weights dinv[src] · dinv[dst]. -/
theorem w1_norm (c : Dev nD) : W1 m ρ c (Proc.devRef .tc main_v25) = val_main_v26 (F := Ideal) (x1 m c) := by
  show StableHlo.after hostOps0 (W0 m ρ c) (Proc.devRef .tc main_v25) = _
  after_results_simp
  rfl
/-- The self-loop weights dinv · dinv. -/
theorem w1_self (c : Dev nD) : W1 m ρ c (Proc.devRef .tc main_v26) = val_main_v40 (F := Ideal) (x1 m c) := by
  show StableHlo.after hostOps0 (W0 m ρ c) (Proc.devRef .tc main_v26) = _
  after_results_simp
  rfl

end Cert.KernelIdeal.KValue

end
-- ==== Proof.Region0.lean ====
/-
  The first product of the network, block by block. The node-feature array x : [50000, 512] is cut into ten row blocks of
  5000 rows; at grid point t the body loads row block t of x and the whole weight W0 : [512, 96], narrows both to bf16
  (the identity on extended reals), multiplies them into a zero accumulator and stores the [5000, 96] result as row block t
  of the output. Entry (p, q) of that block is  ∑ k < 512, x[5000 t + p, k] · W0[k, q] , which is entry (5000 t + p, q) of
  the whole product x · W0. The ten row blocks tile the 50000 rows, so after the last write-back the output array IS the
  whole product: the same sum the host's dot_general is at the ideal values, index by index.
-/
import proofs.«108988_j15307263443205_1_alg».proof.Proof.Gen.KernelIdeal.Frame
import proofs.«108988_j15307263443205_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

/-! ## The block product's operand indices -/

/-- Row coordinate of the left operand's index: the output's row. -/
theorem lhs_blk_0 (j : S5000x96.Idx) (q : dot_S5000x512_S512x96_S5000x96_1_0_0_1_n_n.contr.Idx) :
    (dot_S5000x512_S512x96_S5000x96_1_0_0_1_n_n.lhsIdx j q 0).val = (j 0).val := by
  unfold DotDims.lhsIdx
  rw [dif_neg (show ¬(0 : Fin S5000x512.rank) ∈ dot_S5000x512_S512x96_S5000x96_1_0_0_1_n_n.lhsBatch by decide), dif_pos (show (0 : Fin S5000x512.rank) ∈ dot_S5000x512_S512x96_S5000x96_1_0_0_1_n_n.lhsNonContracting by decide)]
  rfl
/-- Column coordinate of the left operand's index: the summation index. -/
theorem lhs_blk_1 (j : S5000x96.Idx) (q : dot_S5000x512_S512x96_S5000x96_1_0_0_1_n_n.contr.Idx) :
    (dot_S5000x512_S512x96_S5000x96_1_0_0_1_n_n.lhsIdx j q 1).val = (q ⟨0, by decide⟩).val :=
  dot_S5000x512_S512x96_S5000x96_1_0_0_1_n_n.lhsIdx_val_of_single rfl j q
/-- Row coordinate of the right operand's index: the summation index. -/
theorem rhs_blk_0 (j : S5000x96.Idx) (q : dot_S5000x512_S512x96_S5000x96_1_0_0_1_n_n.contr.Idx) :
    (dot_S5000x512_S512x96_S5000x96_1_0_0_1_n_n.rhsIdx j q 0).val = (q ⟨0, by decide⟩).val :=
  dot_S5000x512_S512x96_S5000x96_1_0_0_1_n_n.rhsIdx_val_of_single rfl j q
/-- Column coordinate of the right operand's index: the output's column. -/
theorem rhs_blk_1 (j : S5000x96.Idx) (q : dot_S5000x512_S512x96_S5000x96_1_0_0_1_n_n.contr.Idx) :
    (dot_S5000x512_S512x96_S5000x96_1_0_0_1_n_n.rhsIdx j q 1).val = (j 1).val := by
  unfold DotDims.rhsIdx
  rw [dif_neg (show ¬(1 : Fin S512x96.rank) ∈ dot_S5000x512_S512x96_S5000x96_1_0_0_1_n_n.rhsBatch by decide), dif_pos (show (1 : Fin S512x96.rank) ∈ dot_S5000x512_S512x96_S5000x96_1_0_0_1_n_n.rhsNonContracting by decide)]
  rfl

/-- Entry (row of j, k) of the left block. -/
abbrev lrow (j : S5000x96.Idx) (k : Fin 512) : S5000x512.Idx := fun a => match a with
  | ⟨0, _⟩ => ⟨(j 0).val, (j 0).isLt⟩
  | ⟨1, _⟩ => ⟨k.val, k.isLt⟩
/-- Entry (k, column of j) of the weight. -/
abbrev rcol (j : S5000x96.Idx) (k : Fin 512) : S512x96.Idx := fun a => match a with
  | ⟨0, _⟩ => ⟨k.val, k.isLt⟩
  | ⟨1, _⟩ => ⟨(j 1).val, (j 1).isLt⟩

/-- What the body stores, at an index: the narrowing casts are the identity at the ideal values and the accumulator
    is the zero splat, so the entry is the plain sum of products over the 512 columns. -/
theorem pay_apply (x0 : Vec Ideal S5000x512 .f32) (x1 : Vec Ideal S512x96 .f32) (j : S5000x96.Idx) :
    k0_pay1 (F := Ideal) x0 x1 j = ∑ k : Fin 512, x0 (lrow j k) * x1 (rcol j k) := by
  unfold k0_pay1
  refine (Ideal.matmul_constant_zero_apply dot_S5000x512_S512x96_S5000x96_1_0_0_1_n_n none (truncf .bf16 x0 bitsLt_bf16_f32) (truncf .bf16 x1 bitsLt_bf16_f32) j).trans ?_
  rw [← Equiv.sum_comp (ValueIdx.contrEquiv1 dot_S5000x512_S512x96_S5000x96_1_0_0_1_n_n 512 rfl rfl).symm]
  refine Finset.sum_congr rfl fun k _ => ?_
  have hk := ValueIdx.contrEquiv1_symm_val dot_S5000x512_S512x96_S5000x96_1_0_0_1_n_n 512 rfl rfl k
  have el : dot_S5000x512_S512x96_S5000x96_1_0_0_1_n_n.lhsIdx j ((ValueIdx.contrEquiv1 dot_S5000x512_S512x96_S5000x96_1_0_0_1_n_n 512 rfl rfl).symm k) = lrow j k := funext fun a => Fin.ext (by
    match a with
    | ⟨0, _⟩ => exact lhs_blk_0 _ _
    | ⟨1, _⟩ => exact (lhs_blk_1 _ _).trans hk)
  have er : dot_S5000x512_S512x96_S5000x96_1_0_0_1_n_n.rhsIdx j ((ValueIdx.contrEquiv1 dot_S5000x512_S512x96_S5000x96_1_0_0_1_n_n 512 rfl rfl).symm k) = rcol j k := funext fun a => Fin.ext (by
    match a with
    | ⟨0, _⟩ => exact (rhs_blk_0 _ _).trans hk
    | ⟨1, _⟩ => exact rhs_blk_1 _ _)
  show x0 _ * x1 _ = _
  rw [el, er]

/-! ## From the blocks to the array -/

theorem hz : (![0, 0] : Fin 2 → Nat) = fun _ => 0 := funext fun a => by fin_cases a <;> rfl

variable (V : (c : Dev nD) → (b : Ref sig .tc) → Buf (Elt Ideal) ((c : Thread nD τ).loc b))

/-- The node features as the region finds them. -/
abbrev lhsArr (c : Dev nD) : Vec Ideal S50000x512 .f32 := V c main_arg0
/-- The weight as the region finds it. -/
abbrev rhsArr (c : Dev nD) : Vec Ideal S512x96 .f32 := V c main_arg2

/-- The whole product of the two arrays the region finds: the host's dot_general of them. -/
abbrev whole (c : Dev nD) : S50000x96.Idx → Elt Ideal .f32 :=
  Cert.ReferenceIdeal.Read.val_main_v4 (F := Ideal) (lhsArr V c) (rhsArr V c)

/-- The printed index maps over the ten grid points: the left operand's row block moves with the output's, its column
    block and both of the weight's stay at 0, and the output's column block is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is row block t of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x96) hz]
  obtain ⟨e0, e1, e2, e3, e4, e5⟩ := idx_facts t
  funext j
  show k0_pay1 (F := Ideal) (iblk0 V c 0 t) (iblk0 V c 1 t) j = whole V c (((cfg0.win 2).blk t).view.emb j)
  refine (pay_apply (iblk0 V c 0 t) (iblk0 V c 1 t) j).trans ?_
  refine Eq.trans ?_ (Cert.ReferenceIdeal.Read.val_main_v4_apply (lhsArr V c) (rhsArr V c) (((cfg0.win 2).blk t).view.emb j)).symm
  refine Finset.sum_congr rfl fun k _ => ?_
  have hl : ((cfg0.win 0).blk t).view.emb (lrow j k) = Cert.ReferenceIdeal.Read.lidx_main_v4 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have hr : ((cfg0.win 1).blk t).view.emb (rcol j k) = Cert.ReferenceIdeal.Read.ridx_main_v4 (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 96 + 1 * (j 1).val = win0_2.index t (1 : Fin 2) * 96 + 1 * (j 1).val; omega
  -- a window's block is its array read through the block's rectangle
  have h1 : iblk0 V c 0 t (lrow j k) = lhsArr V c (Cert.ReferenceIdeal.Read.lidx_main_v4 (((cfg0.win 2).blk t).view.emb j) k) :=
    (show iblk0 V c 0 t (lrow j k) = lhsArr V c (((cfg0.win 0).blk t).view.emb (lrow j k)) from rfl).trans (congrArg (lhsArr V c) hl)
  have h2 : iblk0 V c 1 t (rcol j k) = rhsArr V c (Cert.ReferenceIdeal.Read.ridx_main_v4 (((cfg0.win 2).blk t).view.emb j) k) :=
    (show iblk0 V c 1 t (rcol j k) = rhsArr V c (((cfg0.win 1).blk t).view.emb (rcol j k)) from rfl).trans (congrArg (rhsArr V c) hr)
  rw [h1, h2]

/-- An index of the output array is in point t's block iff each coordinate is in the block's range on its axis. -/
theorem mem_blk (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v27).slice (win0_2.rect t)).set ↔ _
  rw [View.set_slice_whole, Rect.mem_set_unit]
  exact Iff.rfl

/-- The ten row blocks tile the output: row r lies in the block of point r / 5000. -/
theorem cover (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- After the region the output array holds the whole product of the two arrays it was entered with. -/
theorem value (c : Dev nD) : (dat0 V c).arrAt 2 cfg0.N = whole V c :=
  (dat0 V c).arrAt_eq_of_cover 2 (whole V c) (fun t _ => flushed_eq V c t) (fun i => cover i)

end Cert.KernelIdeal.Region0

end
-- ==== Proof.Region1.lean ====
/-
  The second product of the network, block by block. The activations h : [50000, 96] are cut into ten row blocks of 5000 rows;
  at grid point t the body loads row block t of h and the whole weight W : [96, 96], narrows both to bf16 (the identity on
  extended reals), multiplies them into a zero accumulator and stores the [5000, 96] result as row block t of the output.
  Entry (p, q) of that block is  ∑ k < 96, h[5000 t + p, k] · W[k, q] , which is entry (5000 t + p, q) of the whole product
  h · W. The ten row blocks tile the 50000 rows, so after the last write-back the output array IS the whole product: the
  same sum the host's dot_general is at the ideal values, index by index.
-/
import proofs.«108988_j15307263443205_1_alg».proof.Proof.Gen.KernelIdeal.Frame
import proofs.«108988_j15307263443205_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

/-! ## The block product's operand indices -/

/-- Row coordinate of the left operand's index: the output's row. -/
theorem lhs_blk_0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
/-- Column coordinate of the left operand's index: the summation index. -/
theorem lhs_blk_1 (j : S5000x96.Idx) (q : dot_S5000x96_S96x96_S5000x96_1_0_0_1_n_n.contr.Idx) :
    (dot_S5000x96_S96x96_S5000x96_1_0_0_1_n_n.lhsIdx j q 1).val = (q ⟨0, by decide⟩).val :=
  dot_S5000x96_S96x96_S5000x96_1_0_0_1_n_n.lhsIdx_val_of_single rfl j q
/-- Row coordinate of the right operand's index: the summation index. -/
theorem rhs_blk_0 (j : S5000x96.Idx) (q : dot_S5000x96_S96x96_S5000x96_1_0_0_1_n_n.contr.Idx) :
    (dot_S5000x96_S96x96_S5000x96_1_0_0_1_n_n.rhsIdx j q 0).val = (q ⟨0, by decide⟩).val :=
  dot_S5000x96_S96x96_S5000x96_1_0_0_1_n_n.rhsIdx_val_of_single rfl j q
/-- Column coordinate of the right operand's index: the output's column. -/
theorem rhs_blk_1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- Entry (row of j, k) of the left block. -/
abbrev lrow (j : S5000x96.Idx) (k : Fin 96) : S5000x96.Idx := fun a => match a with
  | ⟨0, _⟩ => ⟨(j 0).val, (j 0).isLt⟩
  | ⟨1, _⟩ => ⟨k.val, k.isLt⟩
/-- Entry (k, column of j) of the weight. -/
abbrev rcol (j : S5000x96.Idx) (k : Fin 96) : S96x96.Idx := fun a => match a with
  | ⟨0, _⟩ => ⟨k.val, k.isLt⟩
  | ⟨1, _⟩ => ⟨(j 1).val, (j 1).isLt⟩

/-- What the body stores, at an index: the cast of the left block to its own shape and the two narrowing casts are the
    identity at the ideal values and the accumulator is the zero splat, so the entry is the plain sum of products over the
    96 columns. -/
theorem pay_apply (x0 : Vec Ideal S5000x96 .f32) (x1 : Vec Ideal S96x96 .f32) (j : S5000x96.Idx) :
    k1_pay1 (F := Ideal) x0 x1 j = ∑ k : Fin 96, x0 (lrow j k) * x1 (rcol j k) := by
  unfold k1_pay1
  refine (Ideal.matmul_constant_zero_apply dot_S5000x96_S96x96_S5000x96_1_0_0_1_n_n none (truncf .bf16 (shapeCast S5000x96 x0 shapeCasts_S5000x96_S5000x96) bitsLt_bf16_f32) (truncf .bf16 x1 bitsLt_bf16_f32) j).trans ?_
  rw [← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx j ((ValueIdx.contrEquiv1 dot_S5000x96_S96x96_S5000x96_1_0_0_1_n_n 96 rfl rfl).symm k) = lrow j k := funext fun a => Fin.ext (by
    match a with
    | ⟨0, _⟩ => exact lhs_blk_0 _ _
    | ⟨1, _⟩ => exact (lhs_blk_1 _ _).trans hk)
  have er : dot_S5000x96_S96x96_S5000x96_1_0_0_1_n_n.rhsIdx j ((ValueIdx.contrEquiv1 dot_S5000x96_S96x96_S5000x96_1_0_0_1_n_n 96 rfl rfl).symm k) = rcol j k := funext fun a => Fin.ext (by
    match a with
    | ⟨0, _⟩ => exact (rhs_blk_0 _ _).trans hk
    | ⟨1, _⟩ => exact rhs_blk_1 _ _)
  show (shapeCast S5000x96 x0 shapeCasts_S5000x96_S5000x96) _ * x1 _ = _
  rw [shapeCast_self, el, er]

/-! ## The whole product, at an index -/

/-- The host's dot_general of two arrays, at an index: the sum over the 96 columns of the left array's row against the
    right array's column (the contraction index of the printed record is its one coordinate). -/
theorem whole_apply (A : FVec Ideal S50000x96 .f32) (B : FVec Ideal S96x96 .f32) (i : S50000x96.Idx) :
    Host.dotGeneral (F := Ideal) Cert.ReferenceIdeal.dot_S50000x96_S96x96_S50000x96_1_0_0_1_n_n none A B i
      = ∑ k : Fin 96, A (Cert.ReferenceIdeal.Read.lidx_main_v49 i k) * B (Cert.ReferenceIdeal.Read.ridx_main_v49 i k) := by
  simp only [Host.dotGeneral]
  rw [Ideal.dotGeneral_apply, ← Equiv.sum_comp (ValueIdx.contrEquiv1 Cert.ReferenceIdeal.dot_S50000x96_S96x96_S50000x96_1_0_0_1_n_n 96 rfl rfl).symm]
  refine Finset.sum_congr rfl fun k _ => ?_
  have hk := ValueIdx.contrEquiv1_symm_val Cert.ReferenceIdeal.dot_S50000x96_S96x96_S50000x96_1_0_0_1_n_n 96 rfl rfl k
  have el : Cert.ReferenceIdeal.dot_S50000x96_S96x96_S50000x96_1_0_0_1_n_n.lhsIdx i ((ValueIdx.contrEquiv1 Cert.ReferenceIdeal.dot_S50000x96_S96x96_S50000x96_1_0_0_1_n_n 96 rfl rfl).symm k) = Cert.ReferenceIdeal.Read.lidx_main_v49 i k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : Cert.ReferenceIdeal.dot_S50000x96_S96x96_S50000x96_1_0_0_1_n_n.rhsIdx i ((ValueIdx.contrEquiv1 Cert.ReferenceIdeal.dot_S50000x96_S96x96_S50000x96_1_0_0_1_n_n 96 rfl rfl).symm k) = Cert.ReferenceIdeal.Read.ridx_main_v49 i k := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-! ## From the blocks to the array -/

theorem hz : (![0, 0] : Fin 2 → Nat) = fun _ => 0 := funext fun a => by fin_cases a <;> rfl

variable (V : (c : Dev nD) → (b : Ref sig .tc) → Buf (Elt Ideal) ((c : Thread nD τ).loc b))

/-- The activations as the region finds them. -/
abbrev lhsArr (c : Dev nD) : FVec Ideal S50000x96 .f32 := V c main_v48
/-- The weight as the region finds it. -/
abbrev rhsArr (c : Dev nD) : FVec Ideal S96x96 .f32 := V c main_arg4

/-- The whole product of the two arrays the region finds: the host's dot_general of them. -/
abbrev whole (c : Dev nD) : (⟨S50000x96, .f32⟩ : BufTy).Contents (Elt Ideal) :=
  Host.dotGeneral (F := Ideal) Cert.ReferenceIdeal.dot_S50000x96_S96x96_S50000x96_1_0_0_1_n_n none (lhsArr V c) (rhsArr V c)

/-- The printed index maps over the ten grid points: the left operand's row block moves with the output's, its column
    block and both of the weight's stay at 0, and the output's column block is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is row block t of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S5000x96) hz, View.ld_unit_zero (S := S96x96) hz]
  obtain ⟨e0, e1, e2, e3, e4, e5⟩ := idx_facts t
  funext j
  show k1_pay1 (F := Ideal) (iblk1 V c 0 t) (iblk1 V c 1 t) j = whole V c (((cfg1.win 2).blk t).view.emb j)
  refine (pay_apply (iblk1 V c 0 t) (iblk1 V c 1 t) j).trans ?_
  refine Eq.trans ?_ (whole_apply (lhsArr V c) (rhsArr V c) (((cfg1.win 2).blk t).view.emb j)).symm
  refine Finset.sum_congr rfl fun k _ => ?_
  have hl : ((cfg1.win 0).blk t).view.emb (lrow j k) = Cert.ReferenceIdeal.Read.lidx_main_v49 (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 96 + 1 * k.val = k.val; omega
  have hr : ((cfg1.win 1).blk t).view.emb (rcol j k) = Cert.ReferenceIdeal.Read.ridx_main_v49 (((cfg1.win 2).blk t).view.emb j) k := by
    funext a; apply Fin.ext
    match a with
    | ⟨0, _⟩ => show win1_1.index t (0 : Fin 2) * 96 + 1 * k.val = k.val; omega
    | ⟨1, _⟩ => show win1_1.index t (1 : Fin 2) * 96 + 1 * (j 1).val = win1_2.index t (1 : Fin 2) * 96 + 1 * (j 1).val; omega
  -- a window's block is its array read through the block's rectangle
  have h1 : iblk1 V c 0 t (lrow j k) = lhsArr V c (Cert.ReferenceIdeal.Read.lidx_main_v49 (((cfg1.win 2).blk t).view.emb j) k) :=
    (show iblk1 V c 0 t (lrow j k) = lhsArr V c (((cfg1.win 0).blk t).view.emb (lrow j k)) from rfl).trans (congrArg (lhsArr V c) hl)
  have h2 : iblk1 V c 1 t (rcol j k) = rhsArr V c (Cert.ReferenceIdeal.Read.ridx_main_v49 (((cfg1.win 2).blk t).view.emb j) k) :=
    (show iblk1 V c 1 t (rcol j k) = rhsArr V c (((cfg1.win 1).blk t).view.emb (rcol j k)) from rfl).trans (congrArg (rhsArr V c) hr)
  rw [h1, h2]

/-- An index of the output array is in point t's block iff each coordinate is in the block's range on its axis. -/
theorem mem_blk (t : Fin cfg1.N) (i : S50000x96.Idx) :
    i ∈ ((cfg1.win 2).blk t).view.set ↔ ∀ a : Fin 2, win1_2.index t a * S5000x96.size a ≤ (i a).val ∧ (i a).val < win1_2.index t a * S5000x96.size a + S5000x96.size a := by
  show i ∈ ((View.whole main_v49).slice (win1_2.rect t)).set ↔ _
  rw [View.set_slice_whole, Rect.mem_set_unit]
  exact Iff.rfl

/-- The ten row blocks tile the output: row r lies in the block of point r / 5000. -/
theorem cover (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 96 ≤ (i 1).val ∧ (i 1).val < win1_2.index t (1 : Fin 2) * 96 + 96; omega

/-- After the region the output array holds the whole product of the two arrays it was entered with. -/
theorem value (c : Dev nD) : (dat1 V c).arrAt 2 cfg1.N = whole V c :=
  (dat1 V c).arrAt_eq_of_cover 2 (whole V c) (fun t _ => flushed_eq V c t) (fun i => cover i)

/-- The same with the two entry arrays named: whatever they are known to be, the output is their product. -/
theorem value_of (c : Dev nD) (A : FVec Ideal S50000x96 .f32) (B : FVec Ideal S96x96 .f32)
    (hA : lhsArr V c = A) (hB : rhsArr V c = B) :
    (dat1 V c).arrAt 2 cfg1.N
      = Host.dotGeneral (F := Ideal) Cert.ReferenceIdeal.dot_S50000x96_S96x96_S50000x96_1_0_0_1_n_n none A B := by
  subst hA hB
  exact value V c

end Cert.KernelIdeal.Region1

end
-- ==== Proof.Region2.lean ====
/-
  The third product of the network, block by block. The activations h : [50000, 96] are cut into ten row blocks of 5000 rows;
  at grid point t the body loads row block t of h and the whole weight W : [96, 96], narrows both to bf16 (the identity on
  extended reals), multiplies them into a zero accumulator and stores the [5000, 96] result as row block t of the output.
  Entry (p, q) of that block is  ∑ k < 96, h[5000 t + p, k] · W[k, q] , which is entry (5000 t + p, q) of the whole product
  h · W. The ten row blocks tile the 50000 rows, so after the last write-back the output array IS the whole product: the
  same sum the host's dot_general is at the ideal values, index by index.
-/
import proofs.«108988_j15307263443205_1_alg».proof.Proof.Gen.KernelIdeal.Frame
import proofs.«108988_j15307263443205_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

/-! ## The block product's operand indices -/

/-- Row coordinate of the left operand's index: the output's row. -/
theorem lhs_blk_0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
/-- Column coordinate of the left operand's index: the summation index. -/
theorem lhs_blk_1 (j : S5000x96.Idx) (q : dot_S5000x96_S96x96_S5000x96_1_0_0_1_n_n.contr.Idx) :
    (dot_S5000x96_S96x96_S5000x96_1_0_0_1_n_n.lhsIdx j q 1).val = (q ⟨0, by decide⟩).val :=
  dot_S5000x96_S96x96_S5000x96_1_0_0_1_n_n.lhsIdx_val_of_single rfl j q
/-- Row coordinate of the right operand's index: the summation index. -/
theorem rhs_blk_0 (j : S5000x96.Idx) (q : dot_S5000x96_S96x96_S5000x96_1_0_0_1_n_n.contr.Idx) :
    (dot_S5000x96_S96x96_S5000x96_1_0_0_1_n_n.rhsIdx j q 0).val = (q ⟨0, by decide⟩).val :=
  dot_S5000x96_S96x96_S5000x96_1_0_0_1_n_n.rhsIdx_val_of_single rfl j q
/-- Column coordinate of the right operand's index: the output's column. -/
theorem rhs_blk_1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- Entry (row of j, k) of the left block. -/
abbrev lrow (j : S5000x96.Idx) (k : Fin 96) : S5000x96.Idx := fun a => match a with
  | ⟨0, _⟩ => ⟨(j 0).val, (j 0).isLt⟩
  | ⟨1, _⟩ => ⟨k.val, k.isLt⟩
/-- Entry (k, column of j) of the weight. -/
abbrev rcol (j : S5000x96.Idx) (k : Fin 96) : S96x96.Idx := fun a => match a with
  | ⟨0, _⟩ => ⟨k.val, k.isLt⟩
  | ⟨1, _⟩ => ⟨(j 1).val, (j 1).isLt⟩

/-- What the body stores, at an index: the cast of the left block to its own shape and the two narrowing casts are the
    identity at the ideal values and the accumulator is the zero splat, so the entry is the plain sum of products over the
    96 columns. -/
theorem pay_apply (x0 : Vec Ideal S5000x96 .f32) (x1 : Vec Ideal S96x96 .f32) (j : S5000x96.Idx) :
    k2_pay1 (F := Ideal) x0 x1 j = ∑ k : Fin 96, x0 (lrow j k) * x1 (rcol j k) := by
  unfold k2_pay1
  refine (Ideal.matmul_constant_zero_apply dot_S5000x96_S96x96_S5000x96_1_0_0_1_n_n none (truncf .bf16 (shapeCast S5000x96 x0 shapeCasts_S5000x96_S5000x96) bitsLt_bf16_f32) (truncf .bf16 x1 bitsLt_bf16_f32) j).trans ?_
  rw [← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx j ((ValueIdx.contrEquiv1 dot_S5000x96_S96x96_S5000x96_1_0_0_1_n_n 96 rfl rfl).symm k) = lrow j k := funext fun a => Fin.ext (by
    match a with
    | ⟨0, _⟩ => exact lhs_blk_0 _ _
    | ⟨1, _⟩ => exact (lhs_blk_1 _ _).trans hk)
  have er : dot_S5000x96_S96x96_S5000x96_1_0_0_1_n_n.rhsIdx j ((ValueIdx.contrEquiv1 dot_S5000x96_S96x96_S5000x96_1_0_0_1_n_n 96 rfl rfl).symm k) = rcol j k := funext fun a => Fin.ext (by
    match a with
    | ⟨0, _⟩ => exact (rhs_blk_0 _ _).trans hk
    | ⟨1, _⟩ => exact rhs_blk_1 _ _)
  show (shapeCast S5000x96 x0 shapeCasts_S5000x96_S5000x96) _ * x1 _ = _
  rw [shapeCast_self, el, er]

/-! ## The whole product, at an index -/

/-- The host's dot_general of two arrays, at an index: the sum over the 96 columns of the left array's row against the
    right array's column (the contraction index of the printed record is its one coordinate). -/
theorem whole_apply (A : FVec Ideal S50000x96 .f32) (B : FVec Ideal S96x96 .f32) (i : S50000x96.Idx) :
    Host.dotGeneral (F := Ideal) Cert.ReferenceIdeal.dot_S50000x96_S96x96_S50000x96_1_0_0_1_n_n none A B i
      = ∑ k : Fin 96, A (Cert.ReferenceIdeal.Read.lidx_main_v94 i k) * B (Cert.ReferenceIdeal.Read.ridx_main_v94 i k) := by
  simp only [Host.dotGeneral]
  rw [Ideal.dotGeneral_apply, ← Equiv.sum_comp (ValueIdx.contrEquiv1 Cert.ReferenceIdeal.dot_S50000x96_S96x96_S50000x96_1_0_0_1_n_n 96 rfl rfl).symm]
  refine Finset.sum_congr rfl fun k _ => ?_
  have hk := ValueIdx.contrEquiv1_symm_val Cert.ReferenceIdeal.dot_S50000x96_S96x96_S50000x96_1_0_0_1_n_n 96 rfl rfl k
  have el : Cert.ReferenceIdeal.dot_S50000x96_S96x96_S50000x96_1_0_0_1_n_n.lhsIdx i ((ValueIdx.contrEquiv1 Cert.ReferenceIdeal.dot_S50000x96_S96x96_S50000x96_1_0_0_1_n_n 96 rfl rfl).symm k) = Cert.ReferenceIdeal.Read.lidx_main_v94 i k := funext fun a => Fin.ext (by
    match a with
    | ⟨0, _⟩ => exact Cert.ReferenceIdeal.Read.lhs_main_v94_0 _ _
    | ⟨1, _⟩ => exact (Cert.ReferenceIdeal.Read.lhs_main_v94_1 _ _).trans hk)
  have er : Cert.ReferenceIdeal.dot_S50000x96_S96x96_S50000x96_1_0_0_1_n_n.rhsIdx i ((ValueIdx.contrEquiv1 Cert.ReferenceIdeal.dot_S50000x96_S96x96_S50000x96_1_0_0_1_n_n 96 rfl rfl).symm k) = Cert.ReferenceIdeal.Read.ridx_main_v94 i k := funext fun a => Fin.ext (by
    match a with
    | ⟨0, _⟩ => exact (Cert.ReferenceIdeal.Read.rhs_main_v94_0 _ _).trans hk
    | ⟨1, _⟩ => exact Cert.ReferenceIdeal.Read.rhs_main_v94_1 _ _)
  rw [el, er]

/-! ## From the blocks to the array -/

theorem hz : (![0, 0] : Fin 2 → Nat) = fun _ => 0 := funext fun a => by fin_cases a <;> rfl

variable (V : (c : Dev nD) → (b : Ref sig .tc) → Buf (Elt Ideal) ((c : Thread nD τ).loc b))

/-- The activations as the region finds them. -/
abbrev lhsArr (c : Dev nD) : FVec Ideal S50000x96 .f32 := V c main_v70
/-- The weight as the region finds it. -/
abbrev rhsArr (c : Dev nD) : FVec Ideal S96x96 .f32 := V c main_arg6

/-- The whole product of the two arrays the region finds: the host's dot_general of them. -/
abbrev whole (c : Dev nD) : (⟨S50000x96, .f32⟩ : BufTy).Contents (Elt Ideal) :=
  Host.dotGeneral (F := Ideal) Cert.ReferenceIdeal.dot_S50000x96_S96x96_S50000x96_1_0_0_1_n_n none (lhsArr V c) (rhsArr V c)

/-- The printed index maps over the ten grid points: the left operand's row block moves with the output's, its column
    block and both of the weight's stay at 0, and the output's column block is 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is row block t of the whole product. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S5000x96) hz, View.ld_unit_zero (S := S96x96) hz]
  obtain ⟨e0, e1, e2, e3, e4, e5⟩ := idx_facts t
  funext j
  show k2_pay1 (F := Ideal) (iblk2 V c 0 t) (iblk2 V c 1 t) j = whole V c (((cfg2.win 2).blk t).view.emb j)
  refine (pay_apply (iblk2 V c 0 t) (iblk2 V c 1 t) j).trans ?_
  refine Eq.trans ?_ (whole_apply (lhsArr V c) (rhsArr V c) (((cfg2.win 2).blk t).view.emb j)).symm
  refine Finset.sum_congr rfl fun k _ => ?_
  have hl : ((cfg2.win 0).blk t).view.emb (lrow j k) = Cert.ReferenceIdeal.Read.lidx_main_v94 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 96 + 1 * k.val = k.val; omega
  have hr : ((cfg2.win 1).blk t).view.emb (rcol j k) = Cert.ReferenceIdeal.Read.ridx_main_v94 (((cfg2.win 2).blk t).view.emb j) k := by
    funext a; apply Fin.ext
    match a with
    | ⟨0, _⟩ => show win2_1.index t (0 : Fin 2) * 96 + 1 * k.val = k.val; omega
    | ⟨1, _⟩ => show win2_1.index t (1 : Fin 2) * 96 + 1 * (j 1).val = win2_2.index t (1 : Fin 2) * 96 + 1 * (j 1).val; omega
  -- a window's block is its array read through the block's rectangle
  have h1 : iblk2 V c 0 t (lrow j k) = lhsArr V c (Cert.ReferenceIdeal.Read.lidx_main_v94 (((cfg2.win 2).blk t).view.emb j) k) :=
    (show iblk2 V c 0 t (lrow j k) = lhsArr V c (((cfg2.win 0).blk t).view.emb (lrow j k)) from rfl).trans (congrArg (lhsArr V c) hl)
  have h2 : iblk2 V c 1 t (rcol j k) = rhsArr V c (Cert.ReferenceIdeal.Read.ridx_main_v94 (((cfg2.win 2).blk t).view.emb j) k) :=
    (show iblk2 V c 1 t (rcol j k) = rhsArr V c (((cfg2.win 1).blk t).view.emb (rcol j k)) from rfl).trans (congrArg (rhsArr V c) hr)
  rw [h1, h2]

/-- An index of the output array is in point t's block iff each coordinate is in the block's range on its axis. -/
theorem mem_blk (t : Fin cfg2.N) (i : S50000x96.Idx) :
    i ∈ ((cfg2.win 2).blk t).view.set ↔ ∀ a : Fin 2, win2_2.index t a * S5000x96.size a ≤ (i a).val ∧ (i a).val < win2_2.index t a * S5000x96.size a + S5000x96.size a := by
  show i ∈ ((View.whole main_v71).slice (win2_2.rect t)).set ↔ _
  rw [View.set_slice_whole, Rect.mem_set_unit]
  exact Iff.rfl

/-- The ten row blocks tile the output: row r lies in the block of point r / 5000. -/
theorem cover (i : S50000x96.Idx) : ∃ t : Fin cfg2.N, (cfg2.win 2).flush t = true ∧ i ∈ ((cfg2.win 2).blk t).view.set := by
  have hi0 : (i 0).val < 50000 := (i 0).isLt
  have hi1 : (i 1).val < 96 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 96 ≤ (i 1).val ∧ (i 1).val < win2_2.index t (1 : Fin 2) * 96 + 96; omega

/-- After the region the output array holds the whole product of the two arrays it was entered with. -/
theorem value (c : Dev nD) : (dat2 V c).arrAt 2 cfg2.N = whole V c :=
  (dat2 V c).arrAt_eq_of_cover 2 (whole V c) (fun t _ => flushed_eq V c t) (fun i => cover i)

/-- The same with the two entry arrays named: whatever they are known to be, the output is their product. -/
theorem value_of (c : Dev nD) (A : FVec Ideal S50000x96 .f32) (B : FVec Ideal S96x96 .f32)
    (hA : lhsArr V c = A) (hB : rhsArr V c = B) :
    (dat2 V c).arrAt 2 cfg2.N
      = Host.dotGeneral (F := Ideal) Cert.ReferenceIdeal.dot_S50000x96_S96x96_S50000x96_1_0_0_1_n_n none A B := by
  subst hA hB
  exact value V c

end Cert.KernelIdeal.Region2

end
-- ==== Proof.Region3.lean ====
/-
  The last product of the network, block by block. The activations h : [50000, 96] are cut into ten row blocks of 5000 rows;
  at grid point t the body loads row block t of h and the whole weight W : [96, 64], narrows both to bf16 (the identity on
  extended reals), multiplies them into a zero accumulator and stores the [5000, 64] result as row block t of the output.
  Entry (p, q) of that block is  ∑ k < 96, h[5000 t + p, k] · W[k, q] , which is entry (5000 t + p, q) of the whole product
  h · W. The ten row blocks tile the 50000 rows, so after the last write-back the output array IS the whole product: the
  same sum the host's dot_general is at the ideal values, index by index.
-/
import proofs.«108988_j15307263443205_1_alg».proof.Proof.Gen.KernelIdeal.Frame
import proofs.«108988_j15307263443205_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)

/-! ## The block product's operand indices -/

/-- Row coordinate of the left operand's index: the output's row. -/
theorem lhs_blk_0 (j : S5000x64.Idx) (q : dot_S5000x96_S96x64_S5000x64_1_0_0_1_n_n.contr.Idx) :
    (dot_S5000x96_S96x64_S5000x64_1_0_0_1_n_n.lhsIdx j q 0).val = (j 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
/-- Column coordinate of the left operand's index: the summation index. -/
theorem lhs_blk_1 (j : S5000x64.Idx) (q : dot_S5000x96_S96x64_S5000x64_1_0_0_1_n_n.contr.Idx) :
    (dot_S5000x96_S96x64_S5000x64_1_0_0_1_n_n.lhsIdx j q 1).val = (q ⟨0, by decide⟩).val :=
  dot_S5000x96_S96x64_S5000x64_1_0_0_1_n_n.lhsIdx_val_of_single rfl j q
/-- Row coordinate of the right operand's index: the summation index. -/
theorem rhs_blk_0 (j : S5000x64.Idx) (q : dot_S5000x96_S96x64_S5000x64_1_0_0_1_n_n.contr.Idx) :
    (dot_S5000x96_S96x64_S5000x64_1_0_0_1_n_n.rhsIdx j q 0).val = (q ⟨0, by decide⟩).val :=
  dot_S5000x96_S96x64_S5000x64_1_0_0_1_n_n.rhsIdx_val_of_single rfl j q
/-- Column coordinate of the right operand's index: the output's column. -/
theorem rhs_blk_1 (j : S5000x64.Idx) (q : dot_S5000x96_S96x64_S5000x64_1_0_0_1_n_n.contr.Idx) :
    (dot_S5000x96_S96x64_S5000x64_1_0_0_1_n_n.rhsIdx j q 1).val = (j 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- Entry (row of j, k) of the left block. -/
abbrev lrow (j : S5000x64.Idx) (k : Fin 96) : S5000x96.Idx := fun a => match a with
  | ⟨0, _⟩ => ⟨(j 0).val, (j 0).isLt⟩
  | ⟨1, _⟩ => ⟨k.val, k.isLt⟩
/-- Entry (k, column of j) of the weight. -/
abbrev rcol (j : S5000x64.Idx) (k : Fin 96) : S96x64.Idx := fun a => match a with
  | ⟨0, _⟩ => ⟨k.val, k.isLt⟩
  | ⟨1, _⟩ => ⟨(j 1).val, (j 1).isLt⟩

/-- What the body stores, at an index: the cast of the left block to its own shape and the two narrowing casts are the
    identity at the ideal values and the accumulator is the zero splat, so the entry is the plain sum of products over the
    96 columns. -/
theorem pay_apply (x0 : Vec Ideal S5000x96 .f32) (x1 : Vec Ideal S96x64 .f32) (j : S5000x64.Idx) :
    k3_pay1 (F := Ideal) x0 x1 j = ∑ k : Fin 96, x0 (lrow j k) * x1 (rcol j k) := by
  unfold k3_pay1
  refine (Ideal.matmul_constant_zero_apply dot_S5000x96_S96x64_S5000x64_1_0_0_1_n_n none (truncf .bf16 (shapeCast S5000x96 x0 shapeCasts_S5000x96_S5000x96) bitsLt_bf16_f32) (truncf .bf16 x1 bitsLt_bf16_f32) j).trans ?_
  rw [← Equiv.sum_comp (ValueIdx.contrEquiv1 dot_S5000x96_S96x64_S5000x64_1_0_0_1_n_n 96 rfl rfl).symm]
  refine Finset.sum_congr rfl fun k _ => ?_
  have hk := ValueIdx.contrEquiv1_symm_val dot_S5000x96_S96x64_S5000x64_1_0_0_1_n_n 96 rfl rfl k
  have el : dot_S5000x96_S96x64_S5000x64_1_0_0_1_n_n.lhsIdx j ((ValueIdx.contrEquiv1 dot_S5000x96_S96x64_S5000x64_1_0_0_1_n_n 96 rfl rfl).symm k) = lrow j k := funext fun a => Fin.ext (by
    match a with
    | ⟨0, _⟩ => exact lhs_blk_0 _ _
    | ⟨1, _⟩ => exact (lhs_blk_1 _ _).trans hk)
  have er : dot_S5000x96_S96x64_S5000x64_1_0_0_1_n_n.rhsIdx j ((ValueIdx.contrEquiv1 dot_S5000x96_S96x64_S5000x64_1_0_0_1_n_n 96 rfl rfl).symm k) = rcol j k := funext fun a => Fin.ext (by
    match a with
    | ⟨0, _⟩ => exact (rhs_blk_0 _ _).trans hk
    | ⟨1, _⟩ => exact rhs_blk_1 _ _)
  show (shapeCast S5000x96 x0 shapeCasts_S5000x96_S5000x96) _ * x1 _ = _
  rw [shapeCast_self, el, er]

/-! ## The whole product, at an index -/

/-- The host's dot_general of two arrays, at an index: the sum over the 96 columns of the left array's row against the
    right array's column (the contraction index of the printed record is its one coordinate). -/
theorem whole_apply (A : FVec Ideal S50000x96 .f32) (B : FVec Ideal S96x64 .f32) (i : S50000x64.Idx) :
    Host.dotGeneral (F := Ideal) Cert.ReferenceIdeal.dot_S50000x96_S96x64_S50000x64_1_0_0_1_n_n none A B i
      = ∑ k : Fin 96, A (Cert.ReferenceIdeal.Read.lidx_main_v139 i k) * B (Cert.ReferenceIdeal.Read.ridx_main_v139 i k) := by
  simp only [Host.dotGeneral]
  rw [Ideal.dotGeneral_apply, ← Equiv.sum_comp (ValueIdx.contrEquiv1 Cert.ReferenceIdeal.dot_S50000x96_S96x64_S50000x64_1_0_0_1_n_n 96 rfl rfl).symm]
  refine Finset.sum_congr rfl fun k _ => ?_
  have hk := ValueIdx.contrEquiv1_symm_val Cert.ReferenceIdeal.dot_S50000x96_S96x64_S50000x64_1_0_0_1_n_n 96 rfl rfl k
  have el : Cert.ReferenceIdeal.dot_S50000x96_S96x64_S50000x64_1_0_0_1_n_n.lhsIdx i ((ValueIdx.contrEquiv1 Cert.ReferenceIdeal.dot_S50000x96_S96x64_S50000x64_1_0_0_1_n_n 96 rfl rfl).symm k) = Cert.ReferenceIdeal.Read.lidx_main_v139 i k := funext fun a => Fin.ext (by
    match a with
    | ⟨0, _⟩ => exact Cert.ReferenceIdeal.Read.lhs_main_v139_0 _ _
    | ⟨1, _⟩ => exact (Cert.ReferenceIdeal.Read.lhs_main_v139_1 _ _).trans hk)
  have er : Cert.ReferenceIdeal.dot_S50000x96_S96x64_S50000x64_1_0_0_1_n_n.rhsIdx i ((ValueIdx.contrEquiv1 Cert.ReferenceIdeal.dot_S50000x96_S96x64_S50000x64_1_0_0_1_n_n 96 rfl rfl).symm k) = Cert.ReferenceIdeal.Read.ridx_main_v139 i k := funext fun a => Fin.ext (by
    match a with
    | ⟨0, _⟩ => exact (Cert.ReferenceIdeal.Read.rhs_main_v139_0 _ _).trans hk
    | ⟨1, _⟩ => exact Cert.ReferenceIdeal.Read.rhs_main_v139_1 _ _)
  rw [el, er]

/-! ## From the blocks to the array -/

theorem hz : (![0, 0] : Fin 2 → Nat) = fun _ => 0 := funext fun a => by fin_cases a <;> rfl

variable (V : (c : Dev nD) → (b : Ref sig .tc) → Buf (Elt Ideal) ((c : Thread nD τ).loc b))

/-- The activations as the region finds them. -/
abbrev lhsArr (c : Dev nD) : FVec Ideal S50000x96 .f32 := V c main_v92
/-- The weight as the region finds it. -/
abbrev rhsArr (c : Dev nD) : FVec Ideal S96x64 .f32 := V c main_arg8

/-- The whole product of the two arrays the region finds: the host's dot_general of them. -/
abbrev whole (c : Dev nD) : (⟨S50000x64, .f32⟩ : BufTy).Contents (Elt Ideal) :=
  Host.dotGeneral (F := Ideal) Cert.ReferenceIdeal.dot_S50000x96_S96x64_S50000x64_1_0_0_1_n_n none (lhsArr V c) (rhsArr V c)

/-- The printed index maps over the ten grid points: the left operand's row block moves with the output's, its column
    block and both of the weight's stay at 0, and the output's column block is 0. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is row block t of the whole product. -/
theorem flushed_eq (c : Dev nD) (t : Fin cfg3.N) :
    (dat3 V c).flushed 2 t = ((cfg3.win 2).blk t).view.read (Elt Ideal) (whole V c) := by
  show (cfg3.win 2).cut (grid3.coords t) ((dat3 V c).after 2 t) = _
  rw [after3_2]
  unfold out3_2
  rw [View.canon_unit_zero hz]
  simp only [View.ld_unit_zero (S := S5000x96) hz, View.ld_unit_zero (S := S96x64) hz]
  obtain ⟨e0, e1, e2, e3, e4, e5⟩ := idx_facts t
  funext j
  show k3_pay1 (F := Ideal) (iblk3 V c 0 t) (iblk3 V c 1 t) j = whole V c (((cfg3.win 2).blk t).view.emb j)
  refine (pay_apply (iblk3 V c 0 t) (iblk3 V c 1 t) j).trans ?_
  refine Eq.trans ?_ (whole_apply (lhsArr V c) (rhsArr V c) (((cfg3.win 2).blk t).view.emb j)).symm
  refine Finset.sum_congr rfl fun k _ => ?_
  have hl : ((cfg3.win 0).blk t).view.emb (lrow j k) = Cert.ReferenceIdeal.Read.lidx_main_v139 (((cfg3.win 2).blk t).view.emb j) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 96 + 1 * k.val = k.val; omega
  have hr : ((cfg3.win 1).blk t).view.emb (rcol j k) = Cert.ReferenceIdeal.Read.ridx_main_v139 (((cfg3.win 2).blk t).view.emb j) k := by
    funext a; apply Fin.ext
    match a with
    | ⟨0, _⟩ => show win3_1.index t (0 : Fin 2) * 96 + 1 * k.val = k.val; omega
    | ⟨1, _⟩ => show win3_1.index t (1 : Fin 2) * 64 + 1 * (j 1).val = win3_2.index t (1 : Fin 2) * 64 + 1 * (j 1).val; omega
  -- a window's block is its array read through the block's rectangle
  have h1 : iblk3 V c 0 t (lrow j k) = lhsArr V c (Cert.ReferenceIdeal.Read.lidx_main_v139 (((cfg3.win 2).blk t).view.emb j) k) :=
    (show iblk3 V c 0 t (lrow j k) = lhsArr V c (((cfg3.win 0).blk t).view.emb (lrow j k)) from rfl).trans (congrArg (lhsArr V c) hl)
  have h2 : iblk3 V c 1 t (rcol j k) = rhsArr V c (Cert.ReferenceIdeal.Read.ridx_main_v139 (((cfg3.win 2).blk t).view.emb j) k) :=
    (show iblk3 V c 1 t (rcol j k) = rhsArr V c (((cfg3.win 1).blk t).view.emb (rcol j k)) from rfl).trans (congrArg (rhsArr V c) hr)
  rw [h1, h2]

/-- An index of the output array is in point t's block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v93).slice (win3_2.rect t)).set ↔ _
  rw [View.set_slice_whole, Rect.mem_set_unit]
  exact Iff.rfl

/-- The ten row blocks tile the output: row r lies in the block of point r / 5000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region the output array holds the whole product of the two arrays it was entered with. -/
theorem value (c : Dev nD) : (dat3 V c).arrAt 2 cfg3.N = whole V c :=
  (dat3 V c).arrAt_eq_of_cover 2 (whole V c) (fun t _ => flushed_eq V c t) (fun i => cover i)

/-- The same with the two entry arrays named: whatever they are known to be, the output is their product. -/
theorem value_of (c : Dev nD) (A : FVec Ideal S50000x96 .f32) (B : FVec Ideal S96x64 .f32)
    (hA : lhsArr V c = A) (hB : rhsArr V c = B) :
    (dat3 V c).arrAt 2 cfg3.N
      = Host.dotGeneral (F := Ideal) Cert.ReferenceIdeal.dot_S50000x96_S96x64_S50000x64_1_0_0_1_n_n none A B := by
  subst hA hB
  exact value V c

end Cert.KernelIdeal.Region3

end
-- ==== Proof.KValue.lean ====
/-
  The kernel's program, read boundary by boundary, after the prelude: three times "a product on the device, then the
  neighbourhood aggregation, the bias and the rectifier on the host", and a last product with its bias. Each lemma says what
  one buffer holds at one boundary, as the SAME named stage of the reference's own program applied to the launch arguments.
  A device product is the host's dot_general of the two arrays its region is entered with (Region0 … Region3), and those are
  the previous layer's output and a weight argument. A layer's host operations are the reference's, operation for operation:
  gather the product's rows at the source nodes, scale by the edge weight, scatter-add at the destination nodes into zeros,
  add the product scaled by the self-loop weight, add the bias; the rectifier is the maximum with the zero splat. The
  reference's second and third layers name their own recomputed weights, which are the first layer's (KBase).
-/
import proofs.«108988_j15307263443205_1_alg».proof.Proof.KCarry
import proofs.«108988_j15307263443205_1_alg».proof.Proof.Region0
import proofs.«108988_j15307263443205_1_alg».proof.Proof.Region1
import proofs.«108988_j15307263443205_1_alg».proof.Proof.Region2
import proofs.«108988_j15307263443205_1_alg».proof.Proof.Region3

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v4 val_main_v26 val_main_v40 val_main_v47 val_main_v48 val_main_v49
  val_main_v92 val_main_v93 val_main_v94 val_main_v137 val_main_v138 val_main_v139 val_main_v142)

variable (m : (ℓ : Loc nD τ sig) → Buf (Elt Ideal) ℓ) (ρ : Dev nD → PrngReg)

/-! ## The first product -/

/-- h1 = x · W0. -/
theorem w2_h (c : Dev nD) : W2 m ρ c (Proc.devRef .tc main_v27) = val_main_v4 (F := Ideal) (x0 m c) (x2 m c) := by
  refine (W2_arr m ρ c 2).trans ?_
  refine (Region0.value (V1 m ρ) c).trans ?_
  show val_main_v4 (F := Ideal) (W1 m ρ c (Proc.devRef .tc main_arg0)) (W1 m ρ c (Proc.devRef .tc main_arg2)) = _
  rw [w1_a0, w1_a2]

/-! ## The first layer: aggregation, bias, rectifier -/

/-- segment_sum (h1[src] · norm) over dst + h1 · self + b0, before the rectifier. -/
theorem w3_pre (c : Dev nD) : W3 m ρ c (Proc.devRef .tc main_v47) = val_main_v47 (F := Ideal) (x0 m c) (x1 m c) (x2 m c) (x3 m c) := by
  show StableHlo.after hostOps1 (W2 m ρ c) (Proc.devRef .tc main_v47) = _
  after_results_simp
  rw [w2_h, w2_src, w2_dst, w2_norm, w2_self, w2_a3]
  rfl

/-- The rectifier's three operations, from any contents: the maximum with the zero splat. -/
theorem relu1 (Wv : Valuation τ sig (Elt Ideal)) :
    StableHlo.after hostOps1_1 Wv (Proc.devRef .tc main_v48)
      = maximumf (F := Ideal) (Wv (Proc.devRef .tc main_v47)) (broadcastInDim S50000x96 ![] bcast_S_S50000x96 (constant (F := Ideal) S_ .f32 0x00000000#32)) := by
  after_results_simp
  rfl

/-- The first layer's output. -/
theorem w4_act (c : Dev nD) : W4 m ρ c (Proc.devRef .tc main_v48) = val_main_v48 (F := Ideal) (x0 m c) (x1 m c) (x2 m c) (x3 m c) := by
  refine (relu1 (W3 m ρ c)).trans ?_
  rw [w3_pre]
  rfl

/-! ## The second product and the second layer -/

/-- h2 = relu(layer 1) · W1. -/
theorem w5_h (c : Dev nD) : W5 m ρ c (Proc.devRef .tc main_v49) = val_main_v49 (F := Ideal) (x0 m c) (x1 m c) (x2 m c) (x3 m c) (x4 m c) :=
  (W5_arr m ρ c 2).trans (Region1.value_of (V4 m ρ) c _ _ (w4_act m ρ c) (w4_a4 m ρ c))

theorem w6_pre (c : Dev nD) : W6 m ρ c (Proc.devRef .tc main_v69) = val_main_v92 (F := Ideal) (x0 m c) (x1 m c) (x2 m c) (x3 m c) (x4 m c) (x5 m c) := by
  show StableHlo.after hostOps2 (W5 m ρ c) (Proc.devRef .tc main_v69) = _
  after_results_simp
  rw [w5_h, w5_src, w5_dst, w5_norm, w5_self, w5_a5, ← norm_layer2, ← self_layer2]
  rfl

theorem relu2 (Wv : Valuation τ sig (Elt Ideal)) :
    StableHlo.after hostOps2_1 Wv (Proc.devRef .tc main_v70)
      = maximumf (F := Ideal) (Wv (Proc.devRef .tc main_v69)) (broadcastInDim S50000x96 ![] bcast_S_S50000x96 (constant (F := Ideal) S_ .f32 0x00000000#32)) := by
  after_results_simp
  rfl

/-- The second layer's output. -/
theorem w7_act (c : Dev nD) : W7 m ρ c (Proc.devRef .tc main_v70) = val_main_v93 (F := Ideal) (x0 m c) (x1 m c) (x2 m c) (x3 m c) (x4 m c) (x5 m c) := by
  refine (relu2 (W6 m ρ c)).trans ?_
  rw [w6_pre]
  rfl

/-! ## The third product and the third layer -/

/-- h3 = relu(layer 2) · W2. -/
theorem w8_h (c : Dev nD) : W8 m ρ c (Proc.devRef .tc main_v71) = val_main_v94 (F := Ideal) (x0 m c) (x1 m c) (x2 m c) (x3 m c) (x4 m c) (x5 m c) (x6 m c) :=
  (W8_arr m ρ c 2).trans (Region2.value_of (V7 m ρ) c _ _ (w7_act m ρ c) (w7_a6 m ρ c))

theorem w9_pre (c : Dev nD) : W9 m ρ c (Proc.devRef .tc main_v91) = val_main_v137 (F := Ideal) (x0 m c) (x1 m c) (x2 m c) (x3 m c) (x4 m c) (x5 m c) (x6 m c) (x7 m c) := by
  show StableHlo.after hostOps3 (W8 m ρ c) (Proc.devRef .tc main_v91) = _
  after_results_simp
  rw [w8_h, w8_src, w8_dst, w8_norm, w8_self, w8_a7, ← norm_layer3, ← self_layer3]
  rfl

theorem relu3 (Wv : Valuation τ sig (Elt Ideal)) :
    StableHlo.after hostOps3_1 Wv (Proc.devRef .tc main_v92)
      = maximumf (F := Ideal) (Wv (Proc.devRef .tc main_v91)) (broadcastInDim S50000x96 ![] bcast_S_S50000x96 (constant (F := Ideal) S_ .f32 0x00000000#32)) := by
  after_results_simp
  rfl

/-- The third layer's output. -/
theorem w10_act (c : Dev nD) : W10 m ρ c (Proc.devRef .tc main_v92) = val_main_v138 (F := Ideal) (x0 m c) (x1 m c) (x2 m c) (x3 m c) (x4 m c) (x5 m c) (x6 m c) (x7 m c) := by
  refine (relu3 (W9 m ρ c)).trans ?_
  rw [w9_pre]
  rfl

/-! ## The last product and its bias -/

/-- relu(layer 3) · fcW. -/
theorem w11_h (c : Dev nD) : W11 m ρ c (Proc.devRef .tc main_v93) = val_main_v139 (F := Ideal) (x0 m c) (x1 m c) (x2 m c) (x3 m c) (x4 m c) (x5 m c) (x6 m c) (x7 m c) (x8 m c) :=
  (W11_arr m ρ c 2).trans (Region3.value_of (V10 m ρ) c _ _ (w10_act m ρ c) (w10_a8 m ρ c))

/-- THE RESULT: what the result buffer holds at the return is the reference's last stage of the launch arguments. -/
theorem w12_out (c : Dev nD) : W12 m ρ c (Proc.devRef .tc main_v96) = val_main_v142 (F := Ideal) (x0 m c) (x1 m c) (x2 m c) (x3 m c) (x4 m c) (x5 m c) (x6 m c) (x7 m c) (x8 m c) (x9 m c) := by
  show StableHlo.after hostOps4 (W11 m ρ c) (Proc.devRef .tc main_v96) = _
  after_results_simp
  rw [w11_h, w11_a9]
  rfl

end Cert.KernelIdeal.KValue

end
-- ==== Proof.lean ====
/-
  A three-layer graph convolution network and a final linear map, over 50000 nodes and 800000 directed edges.

  With A the edge list, deg the in-degree plus one, dinv = deg^(-1/2), one layer sends node features H to
      relu ( S (H W) + b ),      (S Z)[v] = ∑_{e : dst e = v} dinv[src e] · dinv[dst e] · Z[src e]  +  dinv[v]² · Z[v],
  and the result is  H₃ W_fc + b_fc.  The kernel's program computes dinv and the edge weights once and the four dense products
  H W on the device, row block by row block of 5000 nodes, narrowing both factors to bf16 before multiplying; the reference
  computes everything on the host, the degree chain anew in every layer.

  At the ideal values (floats are extended reals, a change of format is the identity, every sum is the exact one) the two
  programs are the same function of the arguments:
    * a product computed in ten row blocks is the product: entry (i, j) of row block i / 5000 is ∑_k H[i, k] · W[k, j], which is
      the host's dot_general at (i, j), and the blocks tile the rows (Proof/Region0 … Region3);
    * every other operation is the reference's own, operation for operation, applied to equal operands, and the reference's
      recomputed degree chains are the same function of the edge list (Proof/KValue);
  so the result buffer of the kernel's run holds the reference's last stage applied to the launch arguments, and the reference's run
  ends at that same stage of arguments that agree. Only commutativity and associativity of finite sums of extended reals are
  used (inside the library's reading of the two products as sums), so the precondition is not opened.
  The three frames are the generated ones; the idealization rewrote nothing, so there is nothing to preserve.
-/
import proofs.«108988_j15307263443205_1_alg».proof.Defs
import proofs.«108988_j15307263443205_1_alg».proof.Proof.Gen.Kernel
import proofs.«108988_j15307263443205_1_alg».proof.Proof.Gen.Kernel.Skeleton
import proofs.«108988_j15307263443205_1_alg».proof.Proof.Gen.Kernel.Launch
import proofs.«108988_j15307263443205_1_alg».proof.Proof.Gen.Kernel.Points
import proofs.«108988_j15307263443205_1_alg».proof.Proof.Gen.Kernel.Frame
import proofs.«108988_j15307263443205_1_alg».proof.Proof.Gen.KernelIdeal
import proofs.«108988_j15307263443205_1_alg».proof.Proof.Gen.KernelIdeal.Skeleton
import proofs.«108988_j15307263443205_1_alg».proof.Proof.Gen.KernelIdeal.Launch
import proofs.«108988_j15307263443205_1_alg».proof.Proof.Gen.KernelIdeal.Points
import proofs.«108988_j15307263443205_1_alg».proof.Proof.Gen.KernelIdeal.Frame
import proofs.«108988_j15307263443205_1_alg».proof.Proof.Gen.ReferenceIdeal
import proofs.«108988_j15307263443205_1_alg».proof.Proof.Gen.ReferenceIdeal.Run
import proofs.«108988_j15307263443205_1_alg».proof.Proof.Gen.ReferenceIdeal.Read
import proofs.«108988_j15307263443205_1_alg».proof.Proof.Gen.Pre_finite_inputs
import proofs.«108988_j15307263443205_1_alg».proof.Proof.RunAll
import proofs.«108988_j15307263443205_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments alone. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run with its result named: the result buffer ends at the reference's last stage of the launch
    arguments, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v96)
            = Cert.ReferenceIdeal.Read.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun r h c =>
    ⟨(h c _ (Cert.KernelIdeal.Gen.mem_uc Cert.KernelIdeal.main_v96 (by decide))).trans (Cert.KernelIdeal.KValue.w12_out m ρ c),
     (h c _ (Cert.KernelIdeal.Gen.mem_uc Cert.KernelIdeal.main_arg0 (by decide))).trans (Cert.KernelIdeal.Gen.W12_main_arg0 m ρ c),
     (h c _ (Cert.KernelIdeal.Gen.mem_uc Cert.KernelIdeal.main_arg1 (by decide))).trans (Cert.KernelIdeal.Gen.W12_main_arg1 m ρ c),
     (h c _ (Cert.KernelIdeal.Gen.mem_uc Cert.KernelIdeal.main_arg2 (by decide))).trans (Cert.KernelIdeal.Gen.W12_main_arg2 m ρ c),
     (h c _ (Cert.KernelIdeal.Gen.mem_uc Cert.KernelIdeal.main_arg3 (by decide))).trans (Cert.KernelIdeal.Gen.W12_main_arg3 m ρ c),
     (h c _ (Cert.KernelIdeal.Gen.mem_uc Cert.KernelIdeal.main_arg4 (by decide))).trans (Cert.KernelIdeal.Gen.W12_main_arg4 m ρ c),
     (h c _ (Cert.KernelIdeal.Gen.mem_uc Cert.KernelIdeal.main_arg5 (by decide))).trans (Cert.KernelIdeal.Gen.W12_main_arg5 m ρ c),
     (h c _ (Cert.KernelIdeal.Gen.mem_uc Cert.KernelIdeal.main_arg6 (by decide))).trans (Cert.KernelIdeal.Gen.W12_main_arg6 m ρ c),
     (h c _ (Cert.KernelIdeal.Gen.mem_uc Cert.KernelIdeal.main_arg7 (by decide))).trans (Cert.KernelIdeal.Gen.W12_main_arg7 m ρ c),
     (h c _ (Cert.KernelIdeal.Gen.mem_uc Cert.KernelIdeal.main_arg8 (by decide))).trans (Cert.KernelIdeal.Gen.W12_main_arg8 m ρ c),
     (h c _ (Cert.KernelIdeal.Gen.mem_uc Cert.KernelIdeal.main_arg9 (by decide))).trans (Cert.KernelIdeal.Gen.W12_main_arg9 m ρ c)⟩)
    (Cert.KernelIdeal.RunAll.run_all m ρ)

/-- From memories that agree on the arguments both runs end, with the same result: the reference's last stage of the
    arguments, which is what its own run's term is. -/
theorem algebraic : Cert.algebraic_KernelIdeal_ReferenceIdeal := by
  intro m ρ m' ρ' _ hagree
  refine ⟨fun c => Cert.ReferenceIdeal.Read.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v142_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
